-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S8192x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S524288 : Shape := ⟨1, ![524288]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S524288 : S_.BroadcastsInDim S524288 (![] : Fin 0 → Fin S524288.rank)
  reducesTo_S524288_S_d0 : S524288.ReducesTo [0] S_

variable [Facts]

def fn_part1 {F : FTy → Type} [FloatOps F] (main_arg1 : IVec S524288 32) (main_arg2 : IVec S524288 32) (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S524288 32 := broadcastInDim S524288 ![] bcast_S_S524288 main_c_8
  let main_v25 : IVec S524288 1 := cmpi .sge main_arg1 main_v24
  let main_c_9 : IVec S_ 1 := constantI S_ 1 1#1
  let main_v26 : IVec S_ 1 := (fun x v => Host.reduce IntOp.andi x v reducesTo_S524288_S_d0 h_S_) main_v25 main_c_9
  let main_v27 : IVec S_ 1 := andi main_v23 main_v26
  let main_c_10 : IVec S_ 32 := constantI S_ 32 0#32
  let main_v28 : IVec S524288 32 := broadcastInDim S524288 ![] bcast_S_S524288 main_c_10
  let main_v29 : IVec S524288 1 := cmpi .sge main_arg2 main_v28
  let main_c_11 : IVec S_ 1 := constantI S_ 1 1#1
  let main_v30 : IVec S_ 1 := (fun x v => Host.reduce IntOp.andi x v reducesTo_S524288_S_d0 h_S_) main_v29 main_c_11
  let main_v31 : IVec S_ 1 := andi main_v27 main_v30
  main_v31

def fn {F : FTy → Type} [FloatOps F] (main_arg0 : FVec F S100000x256 .f32) (main_arg1 : IVec S524288 32) (main_arg2 : IVec S524288 32) (main_arg3 : FVec F S512x256 .f32) (main_arg4 : FVec F S256 .f32) (main_arg5 : FVec F S256x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg5
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg1 main_arg2 main_arg6 main_v13 main_v16
-- ==== Kernel.lean ====
abbrev S100000x256 : Shape := ⟨2, ![100000, 256]⟩
abbrev S524288 : Shape := ⟨1, ![524288]⟩
abbrev S512x256 : Shape := ⟨2, ![512, 256]⟩
abbrev S256 : Shape := ⟨1, ![256]⟩
abbrev S256x1 : Shape := ⟨2, ![256, 1]⟩
abbrev S1 : Shape := ⟨1, ![1]⟩
abbrev S524288x1 : Shape := ⟨2, ![524288, 1]⟩
abbrev S524288x256 : Shape := ⟨2, ![524288, 256]⟩
abbrev S256x256 : Shape := ⟨2, ![256, 256]⟩
abbrev S1x256 : Shape := ⟨2, ![1, 256]⟩
abbrev S8192x256 : Shape := ⟨2, ![8192, 256]⟩
abbrev S8192 : Shape := ⟨1, ![8192]⟩
abbrev S8192x128 : Shape := ⟨2, ![8192, 128]⟩

abbrev nBuf : Space → Nat
  | .hbm => 19
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S524288, .i32⟩
  | .hbm, ⟨2, _⟩ => ⟨S524288, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S100000x256, .bf16⟩
  | .hbm, ⟨8, _⟩ => ⟨S524288x1, .i32⟩
  | .hbm, ⟨9, _⟩ => ⟨S524288x256, .bf16⟩
  | .hbm, ⟨10, _⟩ => ⟨S524288x1, .i32⟩
  | .hbm, ⟨11, _⟩ => ⟨S524288x256, .bf16⟩
  | .hbm, ⟨12, _⟩ => ⟨S256x256, .f32⟩
  | .hbm, ⟨13, _⟩ => ⟨S256x256, .bf16⟩
  | .hbm, ⟨14, _⟩ => ⟨S256x256, .f32⟩
  | .hbm, ⟨15, _⟩ => ⟨S256x256, .bf16⟩
  | .hbm, ⟨16, _⟩ => ⟨S1x256, .f32⟩
  | .hbm, ⟨17, _⟩ => ⟨S1x256, .bf16⟩
  | .hbm, ⟨18, _⟩ => ⟨S524288, .f32⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S1x256, .bf16⟩
  | .local _ .vmem, ⟨8, _⟩ => ⟨S1, .f32⟩
  | .local _ .vmem, ⟨9, _⟩ => ⟨S8192, .f32⟩
  | .local _ .vmem, ⟨10, _⟩ => ⟨S8192, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S524288_S524288x1_0 : S524288.BroadcastsInDim S524288x1 (![0] : Fin 1 → Fin S524288x1.rank)
  slices_S512x256_S256x256_0_0 : S512x256.Slices ![0, 0] S256x256
  slices_S512x256_S256x256_256_0 : S512x256.Slices ![256, 0] S256x256
  transposes_S256x1_S1x256_1_0 : S256x1.Transposes [1, 0] S1x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S8192x256_o0_0_S8192x128 : S8192x256.Slices ![0, 0] S8192x128
  slices_S8192x256_o0_128_S8192x128 : S8192x256.Slices ![0, 128] S8192x128
  reduces_S8192x128_S8192 : S8192x128.Reduces [1] S8192
  inb_S1_S1_0 : ∀ a, (![0] : Fin 1 → Nat) a + S1.size a ≤ S1.size a
  h_S1 : 0 < S1.numel
  broadcasts_S1_S8192 : S1.Broadcasts S8192
  inb_S8192_S8192_0 : ∀ a, (![0] : Fin 1 → Nat) a + S8192.size a ≤ S8192.size a
  h_S8192 : 0 < S8192.numel
  gather_S100000x256_S524288x1_S524288x256_1_0_n_n_0_1_1256_wf : GatherDims.WF S100000x256 S524288x1 S524288x256 [1] [0] [] [0] [] 1 ![1, 256]
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S524288x256.size a
  hwx0_0 : ∀ i : grid0.Coords, EltTy.bits .bf16 = 32 ∨ (Rect.block (s := S524288x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S524288x256.size a
  hwx0_1 : ∀ i : grid0.Coords, EltTy.bits .bf16 = 32 ∨ (Rect.block (s := S524288x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .bf16 = 32 ∨ (Rect.block (s := S1x256) S1x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S524288.size a
  hwx0_7 : ∀ i : grid0.Coords, EltTy.bits .f32 = 32 ∨ (Rect.block (s := S524288) S8192.size (cc0_transform_7 i) (hinb0_7 i)).WholeWords (EltTy.packing .f32)

variable [Facts₀]

def gather_S100000x256_S524288x1_S524288x256_1_0_n_n_0_1_1256 : GatherDims S100000x256 S524288x1 S524288x256 where
  offsetDims := [1]
  collapsedSliceDims := [0]
  operandBatchingDims := []
  startIndicesBatchingDims := []
  startIndexMap := [0]
  indexVectorDim := 1
  sliceSizes := ![1, 256]
  wf := gather_S100000x256_S524288x1_S524288x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v1) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S524288 : Shape := ⟨1, ![524288]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S524288x1 : Shape := ⟨2, ![524288, 1]⟩
abbrev S524288x256 : Shape := ⟨2, ![524288, 256]⟩
abbrev S524288x512 : Shape := ⟨2, ![524288, 512]⟩
abbrev S1x256 : Shape := ⟨2, ![1, 256]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S524288, .i32⟩
  | .hbm, ⟨2, _⟩ => ⟨S524288, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .i32⟩
  | .hbm, ⟨8, _⟩ => ⟨S524288, .i32⟩
  | .hbm, ⟨9, _⟩ => ⟨S524288, .i1⟩
  | .hbm, ⟨10, _⟩ => ⟨S_, .i32⟩
  | .hbm, ⟨11, _⟩ => ⟨S524288, .i32⟩
  | .hbm, ⟨12, _⟩ => ⟨S524288, .i32⟩
  | .hbm, ⟨13, _⟩ => ⟨S524288, .i32⟩
  | .hbm, ⟨14, _⟩ => ⟨S524288x1, .i32⟩
  | .hbm, ⟨15, _⟩ => ⟨S524288x256, .f32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288x256, .f32⟩
  | .hbm, ⟨25, _⟩ => ⟨S524288x512, .f32⟩
  | .hbm, ⟨26, _⟩ => ⟨S524288x256, .f32⟩
  | .hbm, ⟨27, _⟩ => ⟨S1x256, .f32⟩
  | .hbm, ⟨28, _⟩ => ⟨S524288x256, .f32⟩
  | .hbm, ⟨29, _⟩ => ⟨S524288x256, .f32⟩
  | .hbm, ⟨30, _⟩ => ⟨S_, .f32⟩
  | .hbm, ⟨31, _⟩ => ⟨S524288x256, .f32⟩
  | .hbm, ⟨32, _⟩ => ⟨S524288x256, .f32⟩
  | .hbm, ⟨33, _⟩ => ⟨S524288x1, .f32⟩
  | .hbm, ⟨34, _⟩ => ⟨S1x1, .f32⟩
  | .hbm, ⟨35, _⟩ => ⟨S524288x1, .f32⟩
  | .hbm, ⟨36, _⟩ => ⟨S524288x1, .f32⟩
  | .hbm, ⟨37, _⟩ => ⟨S524288, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x256_S524288x256_S524288x512_d1 : Shape.Concatenates [S524288x256, S524288x256] S524288x512 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  gather_S100000x256_S524288x1_S524288x256_1_0_n_n_0_1_1256_wf : GatherDims.WF S100000x256 S524288x1 S524288x256 [1] [0] [] [0] [] 1 ![1, 256]
  dot_S524288x512_S512x256_S524288x256_1_0_0_1_n_n_wf : DotDims.WF S524288x512 S512x256 S524288x256 [1] [0] [0] [1] [] []
  dot_S524288x256_S256x1_S524288x1_1_0_0_1_n_n_wf : DotDims.WF S524288x256 S256x1 S524288x1 [1] [0] [0] [1] [] []

variable [Facts₀]

def gather_S100000x256_S524288x1_S524288x256_1_0_n_n_0_1_1256 : GatherDims S100000x256 S524288x1 S524288x256 where
  offsetDims := [1]
  collapsedSliceDims := [0]
  operandBatchingDims := []
  startIndicesBatchingDims := []
  startIndexMap := [0]
  indexVectorDim := 1
  sliceSizes := ![1, 256]
  wf := gather_S100000x256_S524288x1_S524288x256_1_0_n_n_0_1_1256_wf
def dot_S524288x512_S512x256_S524288x256_1_0_0_1_n_n : DotDims S524288x512 S512x256 S524288x256 where
  lhsContracting := [1]
  rhsContracting := [0]
  lhsNonContracting := [0]
  rhsNonContracting := [1]
  lhsBatch := []
  rhsBatch := []
  wf := dot_S524288x512_S512x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.SumSplit.lean ====
/-
  Two regroupings of a finite sum in a commutative additive monoid; nothing else about the summands is used, so they
  hold on the extended reals with no finiteness assumption. A sum of 512 terms is the sum of its first 256 and its
  last 256 terms (a contraction over two concatenated halves, taken one half at a time); a sum of 256 terms is
  the sum over l < 128 of the l-th and the (128 + l)-th term together (a row folded in half before it is summed).
-/
import Mathlib.Algebra.BigOperators.Fin

namespace Cert.EdgeScore

open Finset

variable {M : Type*} [AddCommMonoid M]

/-- A sum over `Fin 512` is the sum over its first 256 indices plus the sum over its last 256. -/
theorem sum_first_last_256 (f : Fin 512 → M) :
    ∑ k, f k = (∑ k : Fin 256, f ⟨k.val, by omega⟩) + ∑ k : Fin 256, f ⟨256 + k.val, by omega⟩ :=
  Fin.sum_univ_add (a := 256) (b := 256) f

/-- A sum over `Fin 256` is the sum over `l : Fin 128` of the pair of terms at `l` and at `128 + l`. -/
theorem sum_folded_128 (f : Fin 256 → M) :
    ∑ j, f j = ∑ l : Fin 128, (f ⟨l.val, by omega⟩ + f ⟨128 + l.val, by omega⟩) :=
  (Fin.sum_univ_add (a := 128) (b := 128) f).trans Finset.sum_add_distrib.symm

end Cert.EdgeScore
-- ==== Proof.Score.lean ====
/-
  The specification: the score of ONE edge, as a function of the two gathered node rows and the weights, on the
  extended reals. With xs, xd the source and destination rows (256 entries each), Wa and Wb the upper and lower
  256 × 256 halves of the first layer's 512 × 256 weight matrix, b the first bias, w the second layer's 256 weights and
  b₂ its bias:

      hidden j = max (Σₖ xs k · Wa k j + Σₖ xd k · Wb k j + b j) 0          (j < 256)
      score    = Σⱼ hidden j · w j + b₂

  The two programs compute it in two groupings. One contracts the concatenated row (xs | xd) against the whole
  matrix in one sum of 512 products and sums the 256 products hidden j · w j in order (`score_of_concat`); the
  other contracts the halves separately, folds the 256 products in half — the l-th with the (128 + l)-th — and
  sums the 128 pairs (`score_of_folded`). Both are regroupings of finite sums: only commutativity and associativity
  of + are used, which the extended reals have, so no entry need be finite.
-/
import Idealize.ShloMosaic.PureOps.Ideal
import proofs.«416462_j22196390985759_3_alg».proof.Proof.SumSplit

noncomputable section

namespace Cert.EdgeScore

open Finset

/-- The hidden layer at unit `j`: the rectified affine form of the two rows. -/
def hidden (xs xd : Fin 256 → EReal) (Wa Wb : Fin 256 → Fin 256 → EReal) (b : Fin 256 → EReal) (j : Fin 256) : EReal :=
  max (((∑ k : Fin 256, xs k * Wa k j) + ∑ k : Fin 256, xd k * Wb k j) + b j) 0

/-- The edge's score: the hidden layer against the second layer's weights, plus its bias. -/
def score (xs xd : Fin 256 → EReal) (Wa Wb : Fin 256 → Fin 256 → EReal) (b : Fin 256 → EReal) (w : Fin 256 → EReal)
    (b₂ : EReal) : EReal :=
  (∑ j : Fin 256, hidden xs xd Wa Wb b j * w j) + b₂

/-- ONE contraction of the concatenated row against the whole 512-row matrix is the two half contractions: if `X`
    is `xs` on its first 256 entries and `xd` on its last 256, and `W` is `Wa` on its first 256 rows and `Wb` on its
    last 256, the rectified sum of 512 products is `hidden j`. -/
theorem hidden_of_concat (xs xd : Fin 256 → EReal) (Wa Wb : Fin 256 → Fin 256 → EReal) (b : Fin 256 → EReal)
    (X : Fin 512 → EReal) (W : Fin 512 → Fin 256 → EReal)
    (hXs : ∀ k : Fin 256, X ⟨k.val, by omega⟩ = xs k) (hXd : ∀ k : Fin 256, X ⟨256 + k.val, by omega⟩ = xd k)
    (hWa : ∀ (k : Fin 256) j, W ⟨k.val, by omega⟩ j = Wa k j) (hWb : ∀ (k : Fin 256) j, W ⟨256 + k.val, by omega⟩ j = Wb k j)
    (j : Fin 256) :
    max ((∑ k : Fin 512, X k * W k j) + b j) 0 = hidden xs xd Wa Wb b j := by
  unfold hidden
  rw [sum_first_last_256 (fun k => X k * W k j)]
  simp only [hXs, hXd, hWa, hWb]

/-- The score in the first grouping: 512-term contractions, then the 256 products summed in order. -/
theorem score_of_concat (xs xd : Fin 256 → EReal) (Wa Wb : Fin 256 → Fin 256 → EReal) (b w : Fin 256 → EReal) (b₂ : EReal)
    (X : Fin 512 → EReal) (W : Fin 512 → Fin 256 → EReal)
    (hXs : ∀ k : Fin 256, X ⟨k.val, by omega⟩ = xs k) (hXd : ∀ k : Fin 256, X ⟨256 + k.val, by omega⟩ = xd k)
    (hWa : ∀ (k : Fin 256) j, W ⟨k.val, by omega⟩ j = Wa k j) (hWb : ∀ (k : Fin 256) j, W ⟨256 + k.val, by omega⟩ j = Wb k j) :
    (∑ j : Fin 256, max ((∑ k : Fin 512, X k * W k j) + b j) 0 * w j) + b₂ = score xs xd Wa Wb b w b₂ := by
  unfold score
  simp only [hidden_of_concat xs xd Wa Wb b X W hXs hXd hWa hWb]

/-- The score in the second grouping: the products folded in half, then the 128 pairs summed. -/
theorem score_of_folded (xs xd : Fin 256 → EReal) (Wa Wb : Fin 256 → Fin 256 → EReal) (b w : Fin 256 → EReal) (b₂ : EReal) :
    (∑ l : Fin 128, (hidden xs xd Wa Wb b ⟨l.val, by omega⟩ * w ⟨l.val, by omega⟩
        + hidden xs xd Wa Wb b ⟨128 + l.val, by omega⟩ * w ⟨128 + l.val, by omega⟩)) + b₂
      = score xs xd Wa Wb b w b₂ := by
  unfold score
  rw [sum_folded_128 (fun j => hidden xs xd Wa Wb b j * w j)]

end Cert.EdgeScore

end
-- ==== Proof.KernelRow.lean ====
/-
  One row of the kernel body. For row `r` of a block of 8192 edges the body's stored value is the edge's score
  (`Cert.EdgeScore.score`) of row `r` of the two gathered blocks, the two 256 × 256 weight blocks, the bias vector, the
  second layer's weight row and its bias: the two matrix products into zero accumulators are the two half
  contractions, the rectification is `max · 0`, the round trip through the narrower format is the identity on the
  extended reals, and the product with the weight row, folded in half and summed over 128 lanes, is the sum of the
  256 products regrouped (`score_of_folded`).
-/
import proofs.«416462_j22196390985759_3_alg».proof.Proof.Gen.KernelIdeal.Skeleton
import proofs.«416462_j22196390985759_3_alg».proof.Proof.Score
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.EdgeScore

/-! ## The matrix product of a block of rows with a 256 × 256 block, at an entry -/

theorem lhs_axis0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_axis1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_axis0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_axis1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- Entry (r, j) of the product into a zero accumulator is the contraction of row `r` with column `j`. -/
theorem matmul_entry (x : FVec Ideal S8192x256 .bf16) (w : FVec Ideal S256x256 .bf16) (r : Fin 8192) (j : Fin 256) :
    matmul dot_S8192x256_S256x256_S8192x256_1_0_0_1_n_n none x w (constant S8192x256 .f32 0x00000000#32) (ix2 r j)
      = ∑ k : Fin 256, x (ix2 r k) * w (ix2 k j) := by
  simp only [matmul]
  rw [Ideal.matmul_constant_zero_apply, ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 r j) ((contrEquiv1 dot_S8192x256_S256x256_S8192x256_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S8192x256_S256x256_S8192x256_1_0_0_1_n_n.rhsIdx (ix2 r j) ((contrEquiv1 dot_S8192x256_S256x256_S8192x256_1_0_0_1_n_n 256 rfl rfl).symm k) = ix2 k j := funext fun a => Fin.ext (by
    match a with
    | ⟨0, _⟩ => exact (rhs_axis0 _ _).trans hk
    | ⟨1, _⟩ => exact rhs_axis1 _ _)
  rw [el, er]

/-! ## The layout operations of the body, at an entry -/

/-- The bias vector, cast to a row and broadcast down the block, is `b j` at (r, j). -/
theorem bias_entry (b : Vec Ideal S256 .f32) (r : Fin 8192) (j : Fin 256) :
    broadcastTo S8192x256 (shapeCast S1x256 b shapeCasts_S256_S1x256) broadcasts_S1x256_S8192x256 (ix2 r j) = b (ix1 j) := by
  rw [broadcastTo_apply _ broadcasts_S1x256_S8192x256 (ix2 r j) (ix2 (0 : Fin 1) j) (fun a => by
    match a with
    | ⟨0, _⟩ => rfl
    | ⟨1, _⟩ => rfl)]
  exact shapeCast_apply b shapeCasts_S256_S1x256 (ix2 (0 : Fin 1) j) (ix1 j) (by
    rewrite [Shape.rowMajor_val_two, Shape.rowMajor_val_one]; show j.val = 0 * 256 + j.val; omega)

/-- The weight row, widened and broadcast down the block, is `w (0, j)` at (r, j). -/
theorem wrow_entry (w : FVec Ideal S1x256 .bf16) (r : Fin 8192) (j : Fin 256) :
    (broadcastTo S8192x256 (extf (F := Ideal) .f32 w bitsLt_bf16_f32) broadcasts_S1x256_S8192x256 (ix2 r j) : EReal)
      = (w (ix2 (0 : Fin 1) j) : EReal) := by
  rw [broadcastTo_apply _ broadcasts_S1x256_S8192x256 (ix2 r j) (ix2 (0 : Fin 1) j) (fun a => by
    match a with
    | ⟨0, _⟩ => rfl
    | ⟨1, _⟩ => rfl)]
  rfl

/-- The left half of a block's columns. -/
theorem left_half_entry (y : FVec Ideal S8192x256 .f32) (r : Fin 8192) (l : Fin 128) :
    extractStridedSlice S8192x128 ![0, 0] y slices_S8192x256_o0_0_S8192x128 (ix2 r l) = y (ix2 r ⟨l.val, by omega⟩) :=
  extractStridedSlice_apply _ y slices_S8192x256_o0_0_S8192x128 (ix2 r l) (ix2 r ⟨l.val, by omega⟩) (fun a => by
    match a with
    | ⟨0, _⟩ => show r.val = 0 + r.val; omega
    | ⟨1, _⟩ => show l.val = 0 + l.val; omega)

/-- The right half of a block's columns. -/
theorem right_half_entry (y : FVec Ideal S8192x256 .f32) (r : Fin 8192) (l : Fin 128) :
    extractStridedSlice S8192x128 ![0, 128] y slices_S8192x256_o0_128_S8192x128 (ix2 r l) = y (ix2 r ⟨128 + l.val, by omega⟩) :=
  extractStridedSlice_apply _ y slices_S8192x256_o0_128_S8192x128 (ix2 r l) (ix2 r ⟨128 + l.val, by omega⟩) (fun a => by
    match a with
    | ⟨0, _⟩ => show r.val = 0 + r.val; omega
    | ⟨1, _⟩ => show 128 + l.val = 128 + l.val; rfl)

/-- The sum along the 128 lanes of a row. -/
theorem lane_sum_entry (y : FVec Ideal S8192x128 .f32) (hacc : (0x00000000#32 : BitVec 32) = 0x00000000#32) (r : Fin 8192) :
    multiReduction .add [1] S8192 y 0x00000000#32 reduces_S8192x128_S8192 (.inl rfl) hacc (ix1 r) = ∑ l : Fin 128, y (ix2 r l) := by
  refine (Ideal.multiReduction_add_single y 0x00000000#32 reduces_S8192x128_S8192 (.inl rfl) hacc (ix1 r)).trans ?_
  refine Finset.sum_congr rfl fun l _ => congrArg y ?_
  funext a
  match a with
  | ⟨0, _⟩ => rfl
  | ⟨1, _⟩ => rfl

/-- The second bias, broadcast along the block's rows. -/
theorem bias2_entry (b : Vec Ideal S1 .f32) (r : Fin 8192) :
    broadcastTo S8192 b broadcasts_S1_S8192 (ix1 r) = b (ix1 (0 : Fin 1)) :=
  broadcastTo_apply b broadcasts_S1_S8192 (ix1 r) (ix1 (0 : Fin 1)) (fun a => by
    match a with
    | ⟨0, _⟩ => rfl)

/-! ## The body's stored value, at a row -/

/-- The rectified first layer at (r, j) is `hidden j` of row `r` of the two blocks: the two products into zero
    accumulators are the half contractions, the bias row adds `b j`, and the zero splat is the real zero. -/
theorem hidden_entry (x0 x1 : FVec Ideal S8192x256 .bf16) (w0 w1 : FVec Ideal S256x256 .bf16) (b : Vec Ideal S256 .f32)
    (r : Fin 8192) (j : Fin 256) :
    maximumf (addf (addf (matmul dot_S8192x256_S256x256_S8192x256_1_0_0_1_n_n none x0 w0 (constant S8192x256 .f32 0x00000000#32))
            (matmul dot_S8192x256_S256x256_S8192x256_1_0_0_1_n_n none x1 w1 (constant S8192x256 .f32 0x00000000#32)))
          (broadcastTo S8192x256 (shapeCast S1x256 b shapeCasts_S256_S1x256) broadcasts_S1x256_S8192x256))
        (broadcast S8192x256 (FloatOps.ofBits (F := Ideal) .f32 0x00000000#32)) (ix2 r j)
      = hidden (fun k => x0 (ix2 r k)) (fun k => x1 (ix2 r k)) (fun k j => w0 (ix2 k j)) (fun k j => w1 (ix2 k j))
          (fun j => b (ix1 j)) j :=
  congrArg₂ max
    (congrArg₂ (· + ·) (congrArg₂ (· + ·) (matmul_entry x0 w0 r j) (matmul_entry x1 w1 r j)) (bias_entry b r j))
    Ideal.ofBits_zero_f32

/-- Row `r` of what the body stores is the score of row `r`: the 256 products `hidden j · w j`, folded in half and
    summed over the 128 lanes, plus the second bias. -/
theorem payload_entry (v0 v2 : Vec Ideal S8192x256 .bf16) (v4 v7 : Vec Ideal S256x256 .bf16) (v11 : Vec Ideal S256 .f32)
    (v19 : Vec Ideal S1x256 .bf16) (v28 : Vec Ideal S1 .f32) (r : Fin 8192) :
    k0_pay1 (F := Ideal) v0 v2 v4 v7 v11 v19 v28 (ix1 r)
      = score (fun k => v0 (ix2 r k)) (fun k => v2 (ix2 r k)) (fun k j => v4 (ix2 k j)) (fun k j => v7 (ix2 k j))
          (fun j => v11 (ix1 j)) (fun j => v19 (ix2 (0 : Fin 1) j)) (v28 (ix1 (0 : Fin 1))) := by
  rw [← score_of_folded]
  unfold k0_pay1
  simp only [shapeCast_self]
  refine (congrArg₂ (· + ·) (lane_sum_entry _ _ r) (bias2_entry v28 r)).trans ?_
  refine congrArg (· + v28 (ix1 (0 : Fin 1))) (Finset.sum_congr rfl fun l _ => ?_)
  exact congrArg₂ (· + ·)
    ((left_half_entry _ r l).trans (congrArg₂ (· * ·) (hidden_entry v0 v2 v4 v7 v11 r _) (wrow_entry v19 r _)))
    ((right_half_entry _ r l).trans (congrArg₂ (· * ·) (hidden_entry v0 v2 v4 v7 v11 r _) (wrow_entry v19 r _)))

end Cert.KernelIdeal.RowValue

end
-- ==== Proof.KernelArray.lean ====
/-
  From blocks to the whole array. The grid has 64 points; point `t` reads rows 8192·t … 8192·t + 8191 of the two
  gathered arrays, the whole of the two weight blocks, of the bias vector, of the weight row and of the second bias,
  and writes entries 8192·t … 8192·t + 8191 of the result. Row `r` of what it writes is the score of row `r` of its
  blocks (`payload_entry`), that is of row 8192·t + r of the arrays: so the block written at `t` is block `t` of ONE
  whole-array function, `scoreArr`, and since the 64 blocks cover the 524288 entries the result array is `scoreArr`
  of the arrays the region finds.
-/
import proofs.«416462_j22196390985759_3_alg».proof.Proof.KernelRow
import proofs.«416462_j22196390985759_3_alg».proof.Proof.Gen.KernelIdeal.Value

set_option maxRecDepth 16384

noncomputable section

namespace Cert.KernelIdeal.ArrValue

open Cert.KernelIdeal Cert.KernelIdeal.Gen Cert.KernelIdeal.Value Idealize.ShloMosaic Idealize.ShloMosaic.TcCoe Idealize.SL.Sem
open Idealize.ShloMosaic.ValueIdx Cert.EdgeScore
open Idealize.ShloMosaic.Pipeline (Dat)

/-- Every edge's score, as one function of the two arrays of gathered rows, the two weight blocks, the bias, the weight
    row and the second bias: entry `e` is the score of row `e`. -/
def scoreArr (zs zd : S524288x256.Idx → EReal) (wa wb : S256x256.Idx → EReal) (b1 : S256.Idx → EReal)
    (w2 : S1x256.Idx → EReal) (b2 : S1.Idx → EReal) : S524288.Idx → EReal :=
  fun i => score (fun k => zs (ix2 (i 0) k)) (fun k => zd (ix2 (i 0) k)) (fun k j => wa (ix2 k j)) (fun k j => wb (ix2 k j))
    (fun j => b1 (ix1 j)) (fun j => w2 (ix2 (0 : Fin 1) j)) (b2 (ix1 (0 : Fin 1)))

variable (m : (ℓ : Loc nD τ sig) → Buf (Elt Ideal) ℓ) (ρ : Dev nD → PrngReg)

/-! ## The arrays the region finds, at their literal types -/

abbrev srcRows (c : Dev nD) : S524288x256.Idx → EReal := V m c main_v1
abbrev dstRows (c : Dev nD) : S524288x256.Idx → EReal := V m c main_v2
abbrev upperW (c : Dev nD) : S256x256.Idx → EReal := V m c main_v4
abbrev lowerW (c : Dev nD) : S256x256.Idx → EReal := V m c main_v6
abbrev bias1 (c : Dev nD) : S256.Idx → EReal := V m c main_arg4
abbrev wRow (c : Dev nD) : S1x256.Idx → EReal := V m c main_v8
abbrev bias2 (c : Dev nD) : S1.Idx → EReal := V m c main_arg6

theorem hz1 : (![0] : Fin 1 → Nat) = fun _ => 0 := funext fun a => by fin_cases a; rfl
theorem hz2 : (![0, 0] : Fin 2 → Nat) = fun _ => 0 := funext fun a => by fin_cases a <;> rfl

/-! ## The printed index maps, decided over the 64 grid points -/

/-- The two row-block windows move with the output's block along the rows and stay at column block 0; the other
    five windows stay at block 0. -/
theorem idx_facts : ∀ t : Fin cfg0.N,
    win0_0.index t (0 : Fin 2) = win0_7.index t (0 : Fin 1) ∧ win0_0.index t (1 : Fin 2) = 0
    ∧ win0_1.index t (0 : Fin 2) = win0_7.index t (0 : Fin 1) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Every one of the 64 row blocks of the result is some point's. -/
theorem idx_onto : ∀ q : Fin 64, ∃ t : Fin cfg0.N, win0_7.index t = ![q.val] :=
  (by decide +kernel : ∀ q : Fin 64, ∃ t : Fin grid0.N, win0_7.index t = ![q.val])

/-! ## The blocks a point reads, as entries of the arrays -/

/-- The row the output's block puts at position `r`. -/
abbrev rowAt (t : Fin cfg0.N) (r : Fin 8192) : Fin 524288 := (((cfg0.win 7).blk t).view.emb (ix1 r)) 0

theorem src_block (c : Dev nD) (t : Fin cfg0.N) (r : Fin 8192) (k : Fin 256) :
    iblk m c 0 t (ix2 r k) = srcRows m c (ix2 (rowAt t r) k) := by
  obtain ⟨e0, e1, -⟩ := idx_facts t
  show V m c main_v1 (((cfg0.win 0).blk t).view.emb (ix2 r k)) = V m c main_v1 (ix2 (rowAt t r) k)
  refine congrArg _ (funext fun a => Fin.ext ?_)
  match a with
  | ⟨0, _⟩ => show win0_0.index t (0 : Fin 2) * 8192 + 1 * r.val = win0_7.index t (0 : Fin 1) * 8192 + 1 * r.val; rw [e0]
  | ⟨1, _⟩ => show win0_0.index t (1 : Fin 2) * 256 + 1 * k.val = k.val; rw [e1]; omega

theorem dst_block (c : Dev nD) (t : Fin cfg0.N) (r : Fin 8192) (k : Fin 256) :
    iblk m c 1 t (ix2 r k) = dstRows m c (ix2 (rowAt t r) k) := by
  obtain ⟨-, -, e0, e1, -⟩ := idx_facts t
  show V m c main_v2 (((cfg0.win 1).blk t).view.emb (ix2 r k)) = V m c main_v2 (ix2 (rowAt t r) k)
  refine congrArg _ (funext fun a => Fin.ext ?_)
  match a with
  | ⟨0, _⟩ => show win0_1.index t (0 : Fin 2) * 8192 + 1 * r.val = win0_7.index t (0 : Fin 1) * 8192 + 1 * r.val; rw [e0]
  | ⟨1, _⟩ => show win0_1.index t (1 : Fin 2) * 256 + 1 * k.val = k.val; rw [e1]; omega

theorem upper_block (c : Dev nD) (t : Fin cfg0.N) (k j : Fin 256) :
    iblk m c 2 t (ix2 k j) = upperW m c (ix2 k j) := by
  obtain ⟨-, -, -, -, e0, e1, -⟩ := idx_facts t
  show V m c main_v4 (((cfg0.win 2).blk t).view.emb (ix2 k j)) = V m c main_v4 (ix2 k j)
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 256 + 1 * j.val = j.val; rw [e1]; omega

theorem lower_block (c : Dev nD) (t : Fin cfg0.N) (k j : Fin 256) :
    iblk m c 3 t (ix2 k j) = lowerW m c (ix2 k j) := by
  obtain ⟨-, -, -, -, -, -, e0, e1, -⟩ := idx_facts t
  show V m c main_v6 (((cfg0.win 3).blk t).view.emb (ix2 k j)) = V m c main_v6 (ix2 k j)
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * j.val = j.val; rw [e1]; omega

theorem bias1_block (c : Dev nD) (t : Fin cfg0.N) (j : Fin 256) :
    iblk m c 4 t (ix1 j) = bias1 m c (ix1 j) := by
  obtain ⟨-, -, -, -, -, -, -, -, e0, -⟩ := idx_facts t
  show V m c main_arg4 (((cfg0.win 4).blk t).view.emb (ix1 j)) = V m c main_arg4 (ix1 j)
  refine congrArg _ (funext fun a => Fin.ext ?_)
  match a with
  | ⟨0, _⟩ => show win0_4.index t (0 : Fin 1) * 256 + 1 * j.val = j.val; rw [e0]; omega

theorem wrow_block (c : Dev nD) (t : Fin cfg0.N) (j : Fin 256) :
    iblk m c 5 t (ix2 (0 : Fin 1) j) = wRow m c (ix2 (0 : Fin 1) j) := by
  obtain ⟨-, -, -, -, -, -, -, -, -, e0, e1, -⟩ := idx_facts t
  show V m c main_v8 (((cfg0.win 5).blk t).view.emb (ix2 (0 : Fin 1) j)) = V m c main_v8 (ix2 (0 : Fin 1) j)
  refine congrArg _ (funext fun a => Fin.ext ?_)
  match a with
  | ⟨0, _⟩ => show win0_5.index t (0 : Fin 2) * 1 + 1 * 0 = 0; rw [e0]
  | ⟨1, _⟩ => show win0_5.index t (1 : Fin 2) * 256 + 1 * j.val = j.val; rw [e1]; omega

theorem bias2_block (c : Dev nD) (t : Fin cfg0.N) :
    iblk m c 6 t (ix1 (0 : Fin 1)) = bias2 m c (ix1 (0 : Fin 1)) := by
  obtain ⟨-, -, -, -, -, -, -, -, -, -, -, e0⟩ := idx_facts t
  show V m c main_arg6 (((cfg0.win 6).blk t).view.emb (ix1 (0 : Fin 1))) = V m c main_arg6 (ix1 (0 : Fin 1))
  refine congrArg _ (funext fun a => Fin.ext ?_)
  match a with
  | ⟨0, _⟩ => show win0_6.index t (0 : Fin 1) * 1 + 1 * 0 = 0; rw [e0]

/-! ## What a point writes back, the cover, the final array -/

/-- WHAT POINT `t` WRITES BACK is block `t` of `scoreArr` of the arrays the region finds. -/
theorem flushed_eq (c : Dev nD) (t : Fin cfg0.N) :
    (dats m 0 c).flushed 7 t = ((cfg0.win 7).blk t).view.read (Elt Ideal)
      (scoreArr (srcRows m c) (dstRows m c) (upperW m c) (lowerW m c) (bias1 m c) (wRow m c) (bias2 m c)) := by
  rw [flushed7]
  unfold out0_7
  rw [View.canon_unit_zero hz1]
  simp only [View.ld_unit_zero (S := S8192x256) hz2, View.ld_unit_zero (S := S256x256) hz2, View.ld_unit_zero (S := S256) hz1,
    View.ld_unit_zero (S := S1x256) hz2, View.ld_unit_zero (S := S1) hz1]
  funext y
  obtain ⟨r, rfl⟩ : ∃ r : Fin 8192, y = ix1 r := ⟨y 0, eq_ix1 (n := 8192) y⟩
  show k0_pay1 (F := Ideal) (iblk m c 0 t) (iblk m c 1 t) (iblk m c 2 t) (iblk m c 3 t) (iblk m c 4 t) (iblk m c 5 t) (iblk m c 6 t) (ix1 r)
    = scoreArr (srcRows m c) (dstRows m c) (upperW m c) (lowerW m c) (bias1 m c) (wRow m c) (bias2 m c) (((cfg0.win 7).blk t).view.emb (ix1 r))
  refine (RowValue.payload_entry (iblk m c 0 t) (iblk m c 1 t) (iblk m c 2 t) (iblk m c 3 t) (iblk m c 4 t) (iblk m c 5 t) (iblk m c 6 t) r).trans ?_
  unfold scoreArr
  simp only [src_block m c t r, dst_block m c t r, upper_block m c t, lower_block m c t, bias1_block m c t, wrow_block m c t,
    bias2_block m c t]

/-- An entry of the result is in point `t`'s block iff it lies in the block's range of 8192 entries. -/
theorem mem_blk (t : Fin cfg0.N) (i : S524288.Idx) :
    i ∈ ((cfg0.win 7).blk t).view.set ↔ ∀ a : Fin 1, win0_7.index t a * S8192.size a ≤ (i a).val ∧ (i a).val < win0_7.index t a * S8192.size a + S8192.size a := by
  show i ∈ ((View.whole main_v9).slice (win0_7.rect t)).set ↔ _
  rw [View.set_slice_whole, Rect.mem_set_unit]
  exact Iff.rfl

/-- The 64 blocks cover the result: entry `e` is in the block of the point whose block index is `e / 8192`. -/
theorem cover (i : S524288.Idx) : ∃ t : Fin cfg0.N, (cfg0.win 7).flush t = true ∧ i ∈ ((cfg0.win 7).blk t).view.set := by
  have hi : (i 0).val < 524288 := (i 0).isLt
  obtain ⟨t, ht⟩ := idx_onto ⟨(i 0).val / 8192, by omega⟩
  have q0 : win0_7.index t (0 : Fin 1) = (i 0).val / 8192 := congrFun ht 0
  refine ⟨t, flush0_7 t, ?_⟩
  rw [mem_blk]
  intro a
  match a with
  | ⟨0, _⟩ => show win0_7.index t (0 : Fin 1) * 8192 ≤ (i 0).val ∧ (i 0).val < win0_7.index t (0 : Fin 1) * 8192 + 8192; omega

/-- THE RESULT ARRAY after the run is `scoreArr` of the arrays the region finds. -/
theorem final (c : Dev nD) : (dats m 0 c).arrAt 7 cfg0.N
    = scoreArr (srcRows m c) (dstRows m c) (upperW m c) (lowerW m c) (bias1 m c) (wRow m c) (bias2 m c) :=
  (dats m 0 c).arrAt_eq_of_cover 7 _ (fun t _ => flushed_eq m c t) cover

end Cert.KernelIdeal.ArrValue

end
-- ==== Proof.KernelHost.lean ====
/-
  The arrays the region finds, as the host operations before it leave them. The node table is narrowed and its rows
  gathered twice, at the source and at the destination indices as given (no wrap of negative indices: out-of-range
  start indices are clamped by the gather itself); the first layer's matrix is cut into its upper and lower 256 rows,
  each narrowed; the second layer's column is transposed to a row and narrowed. On the extended reals a narrowing is
  the identity, so these are the gathered rows of the table, the two halves of the matrix and the transposed column.
-/
import proofs.«416462_j22196390985759_3_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The rows of the table at the given indices: the gather of the program, on the table as launched. -/
def rowsAt (z : S100000x256.Idx → EReal) (idx : IVec S524288 32) : S524288x256.Idx → EReal :=
  Host.gather gather_S100000x256_S524288x1_S524288x256_1_0_n_n_0_1_1256 z (broadcastInDim S524288x1 ![0] bcast_S524288_S524288x1_0 idx)

theorem src_rows (c : Dev nD) :
    (V m c main_v1 : S524288x256.Idx → EReal)
      = rowsAt (m ((c : Thread nD τ).loc main_arg0)) (m ((c : Thread nD τ).loc main_arg1)) := by
  dsimp only [Gen.V]
  simp only [Gen.hostOps0, Gen.hostOps0_1, Gen.hostOps0_2, Gen.hostOps0_3, List.flatten_cons, List.flatten_nil, List.append_nil,
    List.cons_append, List.nil_append]
  after_results
  rfl

theorem dst_rows (c : Dev nD) :
    (V m c main_v2 : S524288x256.Idx → EReal)
      = rowsAt (m ((c : Thread nD τ).loc main_arg0)) (m ((c : Thread nD τ).loc main_arg2)) := by
  dsimp only [Gen.V]
  simp only [Gen.hostOps0, Gen.hostOps0_1, Gen.hostOps0_2, Gen.hostOps0_3, List.flatten_cons, List.flatten_nil, List.append_nil,
    List.cons_append, List.nil_append]
  after_results
  rfl

theorem upper_half (c : Dev nD) :
    (V m c main_v4 : S256x256.Idx → EReal)
      = extractStridedSlice S256x256 ![0, 0] (m ((c : Thread nD τ).loc main_arg3)) slices_S512x256_S256x256_0_0 := by
  dsimp only [Gen.V]
  simp only [Gen.hostOps0, Gen.hostOps0_1, Gen.hostOps0_2, Gen.hostOps0_3, List.flatten_cons, List.flatten_nil, List.append_nil,
    List.cons_append, List.nil_append]
  after_results
  rfl

theorem lower_half (c : Dev nD) :
    (V m c main_v6 : S256x256.Idx → EReal)
      = extractStridedSlice S256x256 ![256, 0] (m ((c : Thread nD τ).loc main_arg3)) slices_S512x256_S256x256_256_0 := by
  dsimp only [Gen.V]
  simp only [Gen.hostOps0, Gen.hostOps0_1, Gen.hostOps0_2, Gen.hostOps0_3, List.flatten_cons, List.flatten_nil, List.append_nil,
    List.cons_append, List.nil_append]
  after_results
  rfl

theorem weight_row (c : Dev nD) :
    (V m c main_v8 : S1x256.Idx → EReal)
      = transpose S1x256 [1, 0] (m ((c : Thread nD τ).loc main_arg5)) transposes_S256x1_S1x256_1_0 := by
  dsimp only [Gen.V]
  simp only [Gen.hostOps0, Gen.hostOps0_1, Gen.hostOps0_2, Gen.hostOps0_3, List.flatten_cons, List.flatten_nil, List.append_nil,
    List.cons_append, List.nil_append]
  after_results
  rfl

/-! ## The cut matrix and the transposed column, at an entry -/

theorem upper_half_entry (W : S512x256.Idx → EReal) (k j : Fin 256) :
    extractStridedSlice S256x256 ![0, 0] W slices_S512x256_S256x256_0_0 (ix2 k j) = W (ix2 (⟨k.val, by omega⟩ : Fin 512) j) :=
  extractStridedSlice_apply _ W slices_S512x256_S256x256_0_0 (ix2 k j) (ix2 (⟨k.val, by omega⟩ : Fin 512) j) (fun a => by
    match a with
    | ⟨0, _⟩ => show k.val = 0 + k.val; omega
    | ⟨1, _⟩ => show j.val = 0 + j.val; omega)

theorem lower_half_entry (W : S512x256.Idx → EReal) (k j : Fin 256) :
    extractStridedSlice S256x256 ![256, 0] W slices_S512x256_S256x256_256_0 (ix2 k j) = W (ix2 (⟨256 + k.val, by omega⟩ : Fin 512) j) :=
  extractStridedSlice_apply _ W slices_S512x256_S256x256_256_0 (ix2 k j) (ix2 (⟨256 + k.val, by omega⟩ : Fin 512) j) (fun a => by
    match a with
    | ⟨0, _⟩ => show 256 + k.val = 256 + k.val; rfl
    | ⟨1, _⟩ => show j.val = 0 + j.val; omega)

theorem weight_row_entry (w : S256x1.Idx → EReal) (j : Fin 256) :
    transpose S1x256 [1, 0] w transposes_S256x1_S1x256_1_0 (ix2 (0 : Fin 1) j) = w (ix2 j (0 : Fin 1)) :=
  transpose_apply [1, 0] w transposes_S256x1_S1x256_1_0 (ix2 (0 : Fin 1) j) (ix2 j (0 : Fin 1)) (fun b => by
    match b with
    | ⟨0, _⟩ => rfl
    | ⟨1, _⟩ => rfl)

end Cert.KernelIdeal.HostValue

end
-- ==== Proof.Result.lean ====
/-
  The result both programs are compared against: from the two arrays of gathered node rows and the raw weights —
  the first layer's 512 × 256 matrix, its bias, the second layer's 256 × 1 column and its bias — entry `e` is the score
  (`Cert.EdgeScore.score`) of row `e` of the two arrays against the upper 256 and the lower 256 rows of the matrix.
-/
import proofs.«416462_j22196390985759_3_alg».proof.Proof.Score
import Idealize.ShloMosaic.Lib.ValueIdx

noncomputable section

namespace Cert.EdgeScore

open Idealize.ShloMosaic Idealize.ShloMosaic.ValueIdx

/-- Every edge's score from the gathered rows and the raw weights. -/
def result (zs zd : (⟨2, ![524288, 256]⟩ : Shape).Idx → EReal) (W1 : (⟨2, ![512, 256]⟩ : Shape).Idx → EReal)
    (b1 : (⟨1, ![256]⟩ : Shape).Idx → EReal) (W2 : (⟨2, ![256, 1]⟩ : Shape).Idx → EReal) (b2 : (⟨1, ![1]⟩ : Shape).Idx → EReal) :
    (⟨1, ![524288]⟩ : Shape).Idx → EReal :=
  fun i => score (fun k => zs (ix2 (i 0) k)) (fun k => zd (ix2 (i 0) k))
    (fun k j => W1 (ix2 (⟨k.val, by omega⟩ : Fin 512) j)) (fun k j => W1 (ix2 (⟨256 + k.val, by omega⟩ : Fin 512) j))
    (fun j => b1 (ix1 j)) (fun j => W2 (ix2 j (0 : Fin 1))) (b2 (ix1 (0 : Fin 1)))

end Cert.EdgeScore

end
-- ==== Proof.KernelResult.lean ====
/-
  The kernel's run, read: every weakly fair execution ends with the result array holding `Cert.EdgeScore.result` of the
  rows of the node table gathered at the source and at the destination indices as given, and of the raw weights; the
  arguments are unchanged. The array after the run is `scoreArr` of what the region finds (`ArrValue.final`), and
  what it finds is the gathered rows, the two halves of the matrix, the bias, the transposed column and the second bias
  (`HostValue`), read entry by entry.
-/
import proofs.«416462_j22196390985759_3_alg».proof.Proof.KernelArray
import proofs.«416462_j22196390985759_3_alg».proof.Proof.KernelHost
import proofs.«416462_j22196390985759_3_alg».proof.Proof.Result

set_option maxRecDepth 16384

noncomputable section

namespace Cert.KernelIdeal.RunValue

open Cert.KernelIdeal Cert.KernelIdeal.Gen Cert.KernelIdeal.Value Idealize.ShloMosaic Idealize.ShloMosaic.TcCoe Idealize.SL.Sem
open Idealize.ShloMosaic.ValueIdx Cert.EdgeScore Cert.KernelIdeal.ArrValue Cert.KernelIdeal.HostValue

variable (m : (ℓ : Loc nD τ sig) → Buf (Elt Ideal) ℓ) (ρ : Dev nD → PrngReg)

/-- What the kernel's run leaves in the result array, as a function of the arguments as launched. -/
def out (c : Dev nD) : S524288.Idx → EReal :=
  result (rowsAt (m ((c : Thread nD τ).loc main_arg0)) (m ((c : Thread nD τ).loc main_arg1)))
    (rowsAt (m ((c : Thread nD τ).loc main_arg0)) (m ((c : Thread nD τ).loc main_arg2)))
    (m ((c : Thread nD τ).loc main_arg3)) (m ((c : Thread nD τ).loc main_arg4)) (m ((c : Thread nD τ).loc main_arg5))
    (m ((c : Thread nD τ).loc main_arg6))

/-- The score depends on its seven arguments only through their values. -/
theorem score_congr {xs xs' xd xd' : Fin 256 → EReal} {Wa Wa' Wb Wb' : Fin 256 → Fin 256 → EReal} {b b' w w' : Fin 256 → EReal}
    {b₂ b₂' : EReal} (h1 : xs = xs') (h2 : xd = xd') (h3 : Wa = Wa') (h4 : Wb = Wb') (h5 : b = b') (h6 : w = w') (h7 : b₂ = b₂') :
    score xs xd Wa Wb b w b₂ = score xs' xd' Wa' Wb' b' w' b₂' := by
  subst h1 h2 h3 h4 h5 h6 h7; rfl

/-- The array the run leaves is that function: what the region finds is the gathered rows, the upper and the lower
    256 rows of the matrix, the bias, the column laid as a row, and the second bias. -/
theorem final_eq (c : Dev nD) : (dats m 0 c).arrAt 7 cfg0.N = out m c := by
  rw [ArrValue.final m c]
  funext i
  exact score_congr
    (funext fun k => congrFun (src_rows m c) _)
    (funext fun k => congrFun (dst_rows m c) _)
    (funext fun k => funext fun j => (congrFun (upper_half m c) _).trans (upper_half_entry _ k j))
    (funext fun k => funext fun j => (congrFun (lower_half m c) _).trans (lower_half_entry _ k j))
    (funext fun j => congrFun (V_main_arg4 m c) _)
    (funext fun j => (congrFun (weight_row m c) _).trans (weight_row_entry _ j))
    (congrFun (V_main_arg6 m c) _)

/-- The kernel's run with its result named. -/
theorem run : θ_run defs (onTc (τ := τ) (main (F := Ideal))) ⟨m, fun _ => 0, ρ⟩ fun r => ∀ c : Dev nD,
      r.2.mem ((c : Thread nD τ).loc main_v9) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_eq m c), (h c).2⟩) (Value.run_blocks m ρ)

end Cert.KernelIdeal.RunValue

end
-- ==== Proof.RefValue.lean ====
/-
  The reference's result at an entry. Its run is read one operation at a time (the generated read lemmas); what is
  added here is the concatenation of the two gathered arrays read by halves, and the identification of the result with
  the score of the corresponding rows: entry `e` is the score of row `e` of the source rows and of the destination
  rows against the upper and lower 256 rows of the first layer's matrix — one contraction of 512 products per hidden
  unit, the grouping `score_of_concat` speaks of. The two gathered arrays stay opaque here.
-/
import proofs.«416462_j22196390985759_3_alg».proof.Proof.Gen.ReferenceIdeal.Read
import proofs.«416462_j22196390985759_3_alg».proof.Proof.Score

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.EdgeScore

/-! ## The two gathered arrays side by side, read by halves -/

/-- Columns 0 … 255 of the concatenation are the first array's. -/
theorem concat_left (a b : S524288x256.Idx → EReal) (e : Fin 524288) (k : Fin 256) :
    concatenate S524288x512 1 [⟨S524288x256, a⟩, ⟨S524288x256, b⟩] concatenates_S524288x256_S524288x256_S524288x512_d1 (ix2 e (⟨k.val, by omega⟩ : Fin 512)) = a (ix2 e k) :=
  concatenate_pair_apply_left (1 : Fin 2) a b concatenates_S524288x256_S524288x256_S524288x512_d1 (ix2 e (⟨k.val, by omega⟩ : Fin 512)) rfl (ix2 e k) (fun d => by
    match d with
    | ⟨0, _⟩ => rfl
    | ⟨1, _⟩ => rfl)

/-- Columns 256 … 511 of the concatenation are the second array's. -/
theorem concat_right (a b : S524288x256.Idx → EReal) (e : Fin 524288) (k : Fin 256) :
    concatenate S524288x512 1 [⟨S524288x256, a⟩, ⟨S524288x256, b⟩] concatenates_S524288x256_S524288x256_S524288x512_d1 (ix2 e (⟨256 + k.val, by omega⟩ : Fin 512)) = b (ix2 e k) :=
  concatenate_pair_apply_right (1 : Fin 2) a b concatenates_S524288x256_S524288x256_S524288x512_d1 (ix2 e (⟨256 + k.val, by omega⟩ : Fin 512)) rfl rfl (ix2 e k)
    (fun d hd => by
      match d with
      | ⟨0, _⟩ => rfl
      | ⟨1, _⟩ => exact absurd rfl hd)
    (by show k.val + 256 = 256 + k.val; omega)

/-! ## The result, entry by entry -/

/-- Entry `i` of the reference's result is the score of row `i` of the two gathered arrays. -/
theorem result_entry (x0 : S100000x256.Idx → EReal) (x1 x2 : IVec S524288 32) (x3 : S512x256.Idx → EReal) (x4 : S256.Idx → EReal)
    (x5 : S256x1.Idx → EReal) (x6 : S1.Idx → EReal) (i : S524288.Idx) :
    val_main_v24 (F := Ideal) x0 x1 x2 x3 x4 x5 x6 i
      = score (fun k => val_main_v6 (F := Ideal) x0 x1 (ix2 (i 0) k)) (fun k => val_main_v13 (F := Ideal) x0 x2 (ix2 (i 0) k))
          (fun k j => x3 (ix2 (⟨k.val, by omega⟩ : Fin 512) j)) (fun k j => x3 (ix2 (⟨256 + k.val, by omega⟩ : Fin 512) j))
          (fun j => x4 (ix1 j)) (fun j => x5 (ix2 j (0 : Fin 1))) (x6 (ix1 (0 : Fin 1))) := by
  rw [← score_of_concat _ _ _ _ _ _ _ (fun k => val_main_v14 (F := Ideal) x0 x1 x2 (ix2 (i 0) k)) (fun k j => x3 (ix2 k j))
    (fun k => concat_left _ _ (i 0) k) (fun k => concat_right _ _ (i 0) k) (fun _ _ => rfl) (fun _ _ => rfl)]
  rw [val_main_v24_apply, val_main_v23_apply, val_main_v20_apply, val_main_v22_apply, val_main_v21_apply]
  refine congrArg₂ (· + ·) (Finset.sum_congr rfl fun j _ => congrArg₂ (· * ·) ?_ (congrArg x5 ?_)) (congrArg x6 ?_)
  · rw [val_main_v19_apply, val_main_v18_apply, val_main_v15_apply, val_main_v17_apply, val_main_v16_apply,
      val_main_call0_v0_apply, val_main_call0_cst_apply]
    refine congrArg₂ max (congrArg₂ (· + ·) (Finset.sum_congr rfl fun k _ => congrArg₂ (· * ·) (congrArg _ ?_) (congrArg x3 ?_)) (congrArg x4 ?_))
      Ideal.ofBits_zero_f32
    · funext a
      match a with
      | ⟨0, _⟩ => exact Fin.ext (Nat.div_one _)
      | ⟨1, _⟩ => rfl
    · funext a
      match a with
      | ⟨0, _⟩ => rfl
      | ⟨1, _⟩ => rfl
    · funext a
      match a with
      | ⟨0, _⟩ => rfl
  · funext a
    match a with
    | ⟨0, _⟩ => rfl
    | ⟨1, _⟩ => rfl
  · funext a
    match a with
    | ⟨0, _⟩ => rfl

end Cert.ReferenceIdeal.RefValue

end
-- ==== Proof.RefResult.lean ====
/-
  The reference's run, read. Before each gather the reference adds 100000 to the negative indices (Python's
  indexing from the end) and leaves the others; on an index that is not negative this changes nothing, so under the
  precondition its two gathered arrays are the rows of the node table at the source and at the destination indices as
  given — the arrays the kernel gathers — and its result is `Cert.EdgeScore.result` of those and of the raw weights.
-/
import proofs.«416462_j22196390985759_3_alg».proof.Proof.RefValue
import proofs.«416462_j22196390985759_3_alg».proof.Proof.Result
import Idealize.ShloMosaic.Lib.Affine

set_option maxRecDepth 16384

noncomputable section

namespace Cert.ReferenceIdeal.RunValue

open Cert.ReferenceIdeal Cert.ReferenceIdeal.Gen Cert.ReferenceIdeal.Read Idealize.ShloMosaic Idealize.ShloMosaic.TcCoe
open Idealize.ShloMosaic.ValueIdx Cert.EdgeScore Cert.ReferenceIdeal.RefValue

/-- The rows of the table at the given indices, the indices taken as they are. -/
def rowsAt (z : S100000x256.Idx → EReal) (idx : IVec S524288 32) : S524288x256.Idx → EReal :=
  Host.gather gather_S100000x256_S524288x1_S524288x256_1_0_n_n_0_1_1256 z (broadcastInDim S524288x1 ![0] bcast_S524288_S524288x1_0 idx)

/-- A word that is not negative is not below zero: the comparison's bit is not set. -/
theorem not_below_zero (w : BitVec 32) (h : 0 ≤ w.toInt) : ¬ IntOp.cmpi .slt w 0#32 = 1#1 := fun hc => by
  have := IntOp.cmpi_slt.1 hc
  have z : (0#32 : BitVec 32).toInt = 0 := by decide
  omega

/-- The wrap of negative source indices leaves non-negative indices as they are. -/
theorem wrap_src (x1 : IVec S524288 32) (h : ∀ e : S524288.Idx, 0 ≤ (x1 e).toInt) : val_main_v4 (F := Ideal) x1 = x1 := by
  funext e
  rw [val_main_v4_apply, val_main_v1_apply, val_main_v0_apply, val_main_c_apply]
  exact if_neg (not_below_zero _ (h e))

/-- The wrap of negative destination indices leaves non-negative indices as they are. -/
theorem wrap_dst (x2 : IVec S524288 32) (h : ∀ e : S524288.Idx, 0 ≤ (x2 e).toInt) : val_main_v11 (F := Ideal) x2 = x2 := by
  funext e
  rw [val_main_v11_apply, val_main_v8_apply, val_main_v7_apply, val_main_c_1_apply]
  exact if_neg (not_below_zero _ (h e))

/-- So the source rows the reference gathers are the rows at the indices as given. -/
theorem src_rows (x0 : S100000x256.Idx → EReal) (x1 : IVec S524288 32) (h : ∀ e : S524288.Idx, 0 ≤ (x1 e).toInt) :
    val_main_v6 (F := Ideal) x0 x1 = rowsAt x0 x1 := by
  unfold val_main_v6 val_main_v5 rowsAt
  rw [wrap_src x1 h]

/-- And the destination rows likewise. -/
theorem dst_rows (x0 : S100000x256.Idx → EReal) (x2 : IVec S524288 32) (h : ∀ e : S524288.Idx, 0 ≤ (x2 e).toInt) :
    val_main_v13 (F := Ideal) x0 x2 = rowsAt x0 x2 := by
  unfold val_main_v13 val_main_v12 rowsAt
  rw [wrap_dst x2 h]

/-- THE REFERENCE'S RESULT, under non-negative indices: `result` of the rows at the indices as given and the raw
    weights. -/
theorem result_eq (x0 : S100000x256.Idx → EReal) (x1 x2 : IVec S524288 32) (x3 : S512x256.Idx → EReal) (x4 : S256.Idx → EReal)
    (x5 : S256x1.Idx → EReal) (x6 : S1.Idx → EReal)
    (h1 : ∀ e : S524288.Idx, 0 ≤ (x1 e).toInt) (h2 : ∀ e : S524288.Idx, 0 ≤ (x2 e).toInt) :
    val_main_v24 (F := Ideal) x0 x1 x2 x3 x4 x5 x6 = result (rowsAt x0 x1) (rowsAt x0 x2) x3 x4 x5 x6 := by
  funext i
  rw [result_entry, src_rows x0 x1 h1, dst_rows x0 x2 h2]
  rfl

end Cert.ReferenceIdeal.RunValue

end
-- ==== Proof.PreDecode.lean ====
/-
  The precondition, read. Beside the finiteness of the float inputs it says that every source index and every
  destination index is non-negative as a signed 32-bit integer: each `all (idx ≥ 0)` is a reduction by `and` of the
  compared words, and the conjunction of one-bit words is 1 only if each is. Only the two index facts are used.
-/
import proofs.«416462_j22196390985759_3_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- Under the precondition no source index and no destination index is negative. -/
theorem indices_nonneg {F : FTy → Type} [FloatOps F] (x0 : FVec F S100000x256 .f32) (x1 x2 : IVec S524288 32)
    (x3 : FVec F S512x256 .f32) (x4 : FVec F S256 .f32) (x5 : FVec F S256x1 .f32) (x6 : FVec F S1 .f32)
    (h : fn (F := F) x0 x1 x2 x3 x4 x5 x6 = fun _ => 1#1) :
    (∀ e : S524288.Idx, 0 ≤ (x1 e).toInt) ∧ (∀ e : S524288.Idx, 0 ≤ (x2 e).toInt) := by
  have e := congrFun h ix0
  dsimp only [fn, fn_part1, andi] at e
  obtain ⟨e27, e30⟩ := IntOp.andi_eq_one.1 e
  obtain ⟨-, e26⟩ := IntOp.andi_eq_one.1 e27
  refine ⟨fun i => ?_, fun i => ?_⟩
  · exact IntOp.cmpi_sge.1 (Host.reduce_andi_all _ _ _ _ _ e26 i)
  · exact IntOp.cmpi_sge.1 (Host.reduce_andi_all _ _ _ _ _ e30 i)

end Cert.Pre_finite_inputs.Decode

end
-- ==== Proof.lean ====
/-
  Edge scores of a two-layer perceptron on gathered node pairs: the kernel against its reference, on the extended reals.

  For each of 524288 edges both programs take the rows of a 100000 × 256 node table at the edge's source and
  destination index, apply a first layer (a 512 × 256 matrix W₁ on the concatenated pair, a bias, a rectification) and
  a second layer (a 256 × 1 column, a bias), and return one number per edge:

      out e = Σⱼ max (Σₖ (z[src e] | z[dst e]) k · W₁ k j + b₁ j) 0 · W₂ j + b₂ .

  The reference computes it as written. The kernel gathers the rows on the host, cuts W₁ into its upper and lower 256
  rows, contracts each half against its own row, adds the two, and takes the second layer as a product with the
  column laid as a row, folded in half and summed along 128 lanes. The two differ only in how finite sums are grouped
  (`Cert.EdgeScore`: `score_of_concat`, `score_of_folded`); a change of float format is the identity on the extended
  reals; so the results agree whatever the float inputs hold, and the finiteness part of the precondition is not used.

  What is used is its other part: no source and no destination index is negative. The reference indexes the way Python
  does — a negative index counts from the end, so it adds 100000 to it — while the kernel hands the index to the
  gather as it is, which clamps it into range: at an index in [−99999, −1] the two read different rows. On an index
  that is not negative the reference's wrap changes nothing, and both programs hand the same index to the same
  gather (an index of 100000 or more is clamped to the last row by both).

  The kernel's run is read off its generated frame block by block (`Cert.KernelIdeal.RunValue.run`), the reference's
  off its generated run one operation at a time (`Cert.ReferenceIdeal.RunValue.result_eq`); both end at
  `Cert.EdgeScore.result` of the rows at the indices as given and of the raw weights.
-/
import proofs.«416462_j22196390985759_3_alg».proof.Defs
import proofs.«416462_j22196390985759_3_alg».proof.Proof.Gen.Kernel
import proofs.«416462_j22196390985759_3_alg».proof.Proof.Gen.Kernel.Skeleton
import proofs.«416462_j22196390985759_3_alg».proof.Proof.Gen.Kernel.Launch
import proofs.«416462_j22196390985759_3_alg».proof.Proof.Gen.Kernel.Points
import proofs.«416462_j22196390985759_3_alg».proof.Proof.Gen.Kernel.Frame
import proofs.«416462_j22196390985759_3_alg».proof.Proof.Gen.KernelIdeal
import proofs.«416462_j22196390985759_3_alg».proof.Proof.Gen.KernelIdeal.Skeleton
import proofs.«416462_j22196390985759_3_alg».proof.Proof.Gen.KernelIdeal.Launch
import proofs.«416462_j22196390985759_3_alg».proof.Proof.Gen.KernelIdeal.Points
import proofs.«416462_j22196390985759_3_alg».proof.Proof.Gen.KernelIdeal.Frame
import proofs.«416462_j22196390985759_3_alg».proof.Proof.Gen.ReferenceIdeal
import proofs.«416462_j22196390985759_3_alg».proof.Proof.Gen.Pre_finite_inputs
import proofs.«416462_j22196390985759_3_alg».proof.Proof.Gen.KernelIdeal.Value
import proofs.«416462_j22196390985759_3_alg».proof.Proof.Gen.ReferenceIdeal.Run
import proofs.«416462_j22196390985759_3_alg».proof.Proof.Gen.ReferenceIdeal.Read
import proofs.«416462_j22196390985759_3_alg».proof.Proof.KernelResult
import proofs.«416462_j22196390985759_3_alg».proof.Proof.RefResult
import proofs.«416462_j22196390985759_3_alg».proof.Proof.PreDecode
import Idealize.ShloMosaic.Adequacy
import Idealize.ShloMosaic.Init

set_option maxRecDepth 16384

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: narrowing the rectified hidden layer and widening it back is the identity on
    the extended reals, and the rounding through the narrower format on words. -/
theorem preserves : Cert.preserves_Kernel_KernelIdeal := IdealRules.truncf_extf.statement _ .f32 .bf16

/-- From memories that agree on the arguments, with no negative index, both programs end with the same result: the
    kernel at `result` of the rows at the indices as given (its run), the reference at `result` of the rows at the wrapped
    indices, which are the indices as given because none is negative. -/
theorem algebraic : Cert.algebraic_KernelIdeal_ReferenceIdeal := by
  intro m ρ m' ρ' hpre hagree
  refine ⟨fun c => Cert.KernelIdeal.RunValue.out m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨n1, n2⟩ := Cert.Pre_finite_inputs.Decode.indices_nonneg _ _ _ _ _ _ _ (hpre c)
  rw [Cert.ReferenceIdeal.Read.val_main_v24_eq, a0, a1, a2, a3, a4, a5, a6,
    Cert.ReferenceIdeal.RunValue.result_eq _ _ _ _ _ _ _ n1 n2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
